-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128x40 .f32) (main_arg7 : FVec F S128x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x40 .f32 := Host.absf main_arg6
  let main_cst_6 : FVec F S_ .f32 := constant S_ .f32 0x7F800000#32
  let main_v20 : FVec F S128x40 .f32 := broadcastInDim S128x40 ![] bcast_S_S128x40 main_cst_6
  let main_v21 : IVec S128x40 1 := cmpf .olt main_v19 main_v20
  let main_c_7 : IVec S_ 1 := constantI S_ 1 1#1
  let main_v22 : IVec S_ 1 := (fun x v => Host.reduce IntOp.andi x v reducesTo_S128x40_S_d0_1 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x40 .f32) (main_arg7 : FVec F S128x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S100000x40 : Shape := ⟨2, ![100000, 40]⟩

abbrev nBuf : Space → Nat
  | .hbm => 73
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .f32⟩
  | .hbm, ⟨45, _⟩ => ⟨S_, .f32⟩
  | .hbm, ⟨46, _⟩ => ⟨S100000x128, .f32⟩
  | .hbm, ⟨47, _⟩ => ⟨S1600000x1, .i32⟩
  | .hbm, ⟨48, _⟩ => ⟨S100000x128, .f32⟩
  | .hbm, ⟨49, _⟩ => ⟨S_, .f32⟩
  | .hbm, ⟨50, _⟩ => ⟨S1600000, .f32⟩
  | .hbm, ⟨51, _⟩ => ⟨S_, .f32⟩
  | .hbm, ⟨52, _⟩ => ⟨S100000, .f32⟩
  | .hbm, ⟨53, _⟩ => ⟨S1600000x1, .i32⟩
  | .hbm, ⟨54, _⟩ => ⟨S100000, .f32⟩
  | .hbm, ⟨55, _⟩ => ⟨S_, .f32⟩
  | .hbm, ⟨56, _⟩ => ⟨S100000, .f32⟩
  | .hbm, ⟨57, _⟩ => ⟨S100000, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S_, .f32⟩
  | .hbm, ⟨63, _⟩ => ⟨S128x128, .f32⟩
  | .hbm, ⟨64, _⟩ => ⟨S_, .i32⟩
  | .hbm, ⟨65, _⟩ => ⟨S_, .f32⟩
  | .hbm, ⟨66, _⟩ => ⟨S128x128, .f32⟩
  | .hbm, ⟨67, _⟩ => ⟨S_, .i32⟩
  | .hbm, ⟨68, _⟩ => ⟨S_, .f32⟩
  | .hbm, ⟨69, _⟩ => ⟨S128, .f32⟩
  | .hbm, ⟨70, _⟩ => ⟨S1x128, .f32⟩
  | .hbm, ⟨71, _⟩ => ⟨S100000x128, .f32⟩
  | .hbm, ⟨72, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_c_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_10 : Ref sig .tc := ⟨.hbm, 61, rfl⟩
abbrev main_call0_v0 : Ref sig .tc := ⟨.hbm, 62, rfl⟩
abbrev main_v40 : Ref sig .tc := ⟨.hbm, 63, rfl⟩
abbrev main_c_11 : Ref sig .tc := ⟨.hbm, 64, rfl⟩
abbrev main_call1_v0 : Ref sig .tc := ⟨.hbm, 65, rfl⟩
abbrev main_v41 : Ref sig .tc := ⟨.hbm, 66, rfl⟩
abbrev main_c_12 : Ref sig .tc := ⟨.hbm, 67, rfl⟩
abbrev main_call2_v0 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  pads_S128x40_S128x128_000_0880 : S128x40.Pads (![0, 0] : Fin 2 → Nat) ![0, 88] ![0, 0] S128x128
  h_S_ : 0 < S_.numel
  pads_S40_S128_0880 : S40.Pads (![0] : Fin 1 → Nat) ![88] ![0] S128
  shapeCasts_S128x128_S128x128 : S128x128.ShapeCasts S128x128
  slices_S100000x128_S100000x40_0_0 : S100000x128.Slices ![0, 0] S100000x40
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x40 : Shape := ⟨2, ![100000, 40]⟩
abbrev S1x40 : Shape := ⟨2, ![1, 40]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S128x40, .f32⟩
  | .hbm, ⟨8, _⟩ => ⟨S40, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000, .f32⟩
  | .hbm, ⟨24, _⟩ => ⟨S_, .f32⟩
  | .hbm, ⟨25, _⟩ => ⟨S100000, .f32⟩
  | .hbm, ⟨26, _⟩ => ⟨S1600000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S100000, .f32⟩
  | .hbm, ⟨60, _⟩ => ⟨S1600000x1, .i32⟩
  | .hbm, ⟨61, _⟩ => ⟨S100000, .f32⟩
  | .hbm, ⟨62, _⟩ => ⟨S_, .f32⟩
  | .hbm, ⟨63, _⟩ => ⟨S100000, .f32⟩
  | .hbm, ⟨64, _⟩ => ⟨S100000, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000x40, .f32⟩
  | .hbm, ⟨69, _⟩ => ⟨S100000x40, .f32⟩
  | .hbm, ⟨70, _⟩ => ⟨S100000x40, .f32⟩
  | .hbm, ⟨71, _⟩ => ⟨S1x40, .f32⟩
  | .hbm, ⟨72, _⟩ => ⟨S100000x40, .f32⟩
  | .hbm, ⟨73, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.HostChain.lean ====
/- What the host operations of the kernel's program leave in the buffers the two pallas_calls read, and in the
   result. Before the first call the host computes the neighbour mean of the node features (`agg`) and views the
   first bias as one row; the call's output is the hidden layer. Between the calls the host computes the
   neighbour mean of the hidden layer by the same operations, pads the second layer's two 128×40 weight matrices
   and its 40 biases with zeros to 128 columns, and views the padded bias as one row. After the second call it
   keeps the first 40 columns. Nothing in between writes a buffer that an earlier stretch or call produced, so each
   buffer is read back to the stretch that wrote it. -/
import proofs.«414108_j67070209295068_4_alg».proof.Proof.Gen.KernelIdeal.Frame
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

variable {F : FTy → Type} [FloatOps F]

/-- The neighbour mean as the host computes it: the source rows gathered along the edges (a negative source index
    counted from the end), summed into their destination rows, and each row divided by its in-degree or by one. -/
def agg (x : (⟨S100000x128, .f32⟩ : BufTy).Contents (Elt F)) (src dst : (⟨S1600000, .i32⟩ : BufTy).Contents (Elt F)) :
    (⟨S100000x128, .f32⟩ : BufTy).Contents (Elt F) :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 dst)
      (Host.gather gather_S100000x128_S1600000x1_S1600000x128_1_0_n_n_0_1_1128 x
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src))))
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 dst)
            (broadcastInDim S1600000 ![] bcast_S_S1600000 (constant S_ .f32 0x3F800000#32)))
          (broadcastInDim S100000 ![] bcast_S_S100000 (constant S_ .f32 0x3F800000#32)))))

/-- A 128×40 weight matrix padded with zero columns to 128×128. -/
def padW (w : (⟨S128x40, .f32⟩ : BufTy).Contents (Elt F)) : (⟨S128x128, .f32⟩ : BufTy).Contents (Elt F) :=
  pad S128x128 ![0, 0] ![0, 88] ![0, 0] w (sitofp (F := F) .f32 (constantI S_ 32 0#32)) pads_S128x40_S128x128_000_0880 h_S_

/-- The 40 biases padded with zeros to 128 and viewed as one row. -/
def padB (b : (⟨S40, .f32⟩ : BufTy).Contents (Elt F)) : (⟨S1x128, .f32⟩ : BufTy).Contents (Elt F) :=
  shapeCast S1x128 (pad S128 ![0] ![88] ![0] b (sitofp (F := F) .f32 (constantI S_ 32 0#32)) pads_S40_S128_0880 h_S_) shapeCasts_S128_S1x128

/-- The 128 biases of the first layer viewed as one row. -/
def rowB (b : (⟨S128, .f32⟩ : BufTy).Contents (Elt F)) : (⟨S1x128, .f32⟩ : BufTy).Contents (Elt F) :=
  shapeCast S1x128 b shapeCasts_S128_S1x128

variable (m : (ℓ : Loc nD τ sig) → Buf (Elt F) ℓ) (ρ : Dev nD → PrngReg)

/-! ## Before the first call -/

set_option maxHeartbeats 4000000 in
theorem w1_v18 (c : Dev nD) : W1 m ρ c (Proc.devRef .tc main_v18)
    = agg (F := F) (m ((c : Thread nD τ).loc main_arg0)) (m ((c : Thread nD τ).loc main_arg1)) (m ((c : Thread nD τ).loc main_arg2)) := by
  show StableHlo.after hostOps0 (W0 m ρ c) (Proc.devRef .tc main_v18) = _
  after_results_simp
  rfl

theorem w1_v19 (c : Dev nD) : W1 m ρ c (Proc.devRef .tc main_v19) = rowB (F := F) (m ((c : Thread nD τ).loc main_arg5)) := by
  show StableHlo.after hostOps0 (W0 m ρ c) (Proc.devRef .tc main_v19) = _
  after_results
  rfl

set_option maxHeartbeats 4000000 in
theorem w1_arg0 (c : Dev nD) : W1 m ρ c (Proc.devRef .tc main_arg0) = m ((c : Thread nD τ).loc main_arg0) := by
  show StableHlo.after hostOps0 (W0 m ρ c) (Proc.devRef .tc main_arg0) = _
  after_results_simp

set_option maxHeartbeats 4000000 in
theorem w1_arg1 (c : Dev nD) : W1 m ρ c (Proc.devRef .tc main_arg1) = m ((c : Thread nD τ).loc main_arg1) := by
  show StableHlo.after hostOps0 (W0 m ρ c) (Proc.devRef .tc main_arg1) = _
  after_results_simp

set_option maxHeartbeats 4000000 in
theorem w1_arg2 (c : Dev nD) : W1 m ρ c (Proc.devRef .tc main_arg2) = m ((c : Thread nD τ).loc main_arg2) := by
  show StableHlo.after hostOps0 (W0 m ρ c) (Proc.devRef .tc main_arg2) = _
  after_results_simp

set_option maxHeartbeats 4000000 in
theorem w1_arg3 (c : Dev nD) : W1 m ρ c (Proc.devRef .tc main_arg3) = m ((c : Thread nD τ).loc main_arg3) := by
  show StableHlo.after hostOps0 (W0 m ρ c) (Proc.devRef .tc main_arg3) = _
  after_results_simp

set_option maxHeartbeats 4000000 in
theorem w1_arg4 (c : Dev nD) : W1 m ρ c (Proc.devRef .tc main_arg4) = m ((c : Thread nD τ).loc main_arg4) := by
  show StableHlo.after hostOps0 (W0 m ρ c) (Proc.devRef .tc main_arg4) = _
  after_results_simp

set_option maxHeartbeats 4000000 in
theorem w1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem w1_arg7 (c : Dev nD) : W1 m ρ c (Proc.devRef .tc main_arg7) = m ((c : Thread nD τ).loc main_arg7) := by
  show StableHlo.after hostOps0 (W0 m ρ c) (Proc.devRef .tc main_arg7) = _
  after_results_simp

set_option maxHeartbeats 4000000 in
theorem w1_arg8 (c : Dev nD) : W1 m ρ c (Proc.devRef .tc main_arg8) = m ((c : Thread nD τ).loc main_arg8) := by
  show StableHlo.after hostOps0 (W0 m ρ c) (Proc.devRef .tc main_arg8) = _
  after_results_simp

/-! ## Between the calls -/

/-- A buffer the first call does not write holds after it what it held before. -/
theorem w2_arg (c : Dev nD) (b : Ref sig .tc) (hb : ∀ w, Pipeline.arrRef spec0 w ≠ b) :
    W2 m ρ c (Proc.devRef .tc b) = W1 m ρ c (Proc.devRef .tc b) := W2_of_ne m ρ c b hb

set_option maxHeartbeats 4000000 in
theorem w9_v20 (c : Dev nD) : W9 m ρ c (Proc.devRef .tc main_v20) = W2 m ρ c (Proc.devRef .tc main_v20) := by
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v20) = _
  generalize W2 m ρ c = Z
  after_results_simp

set_option maxHeartbeats 4000000 in
theorem w9_v39 (c : Dev nD) : W9 m ρ c (Proc.devRef .tc main_v39)
    = agg (F := F) (W2 m ρ c (Proc.devRef .tc main_v20)) (m ((c : Thread nD τ).loc main_arg1)) (m ((c : Thread nD τ).loc main_arg2)) := by
  rw [← w1_arg1 m ρ c, ← w1_arg2 m ρ c, ← w2_arg m ρ c main_arg1 (by decide), ← w2_arg m ρ c main_arg2 (by decide)]
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v39) = _
  generalize W2 m ρ c = Z
  after_results_simp
  rfl

set_option maxHeartbeats 4000000 in
theorem w9_v40 (c : Dev nD) : W9 m ρ c (Proc.devRef .tc main_v40) = padW (F := F) (m ((c : Thread nD τ).loc main_arg6)) := by
  rw [← w1_arg6 m ρ c, ← w2_arg m ρ c main_arg6 (by decide)]
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v40) = _
  generalize W2 m ρ c = Z
  after_results_simp
  rfl

set_option maxHeartbeats 4000000 in
theorem w9_v41 (c : Dev nD) : W9 m ρ c (Proc.devRef .tc main_v41) = padW (F := F) (m ((c : Thread nD τ).loc main_arg7)) := by
  rw [← w1_arg7 m ρ c, ← w2_arg m ρ c main_arg7 (by decide)]
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v41) = _
  generalize W2 m ρ c = Z
  after_results_simp
  rfl

set_option maxHeartbeats 4000000 in
theorem w9_v43 (c : Dev nD) : W9 m ρ c (Proc.devRef .tc main_v43) = padB (F := F) (m ((c : Thread nD τ).loc main_arg8)) := by
  rw [← w1_arg8 m ρ c, ← w2_arg m ρ c main_arg8 (by decide)]
  show StableHlo.after hostOps1_6 (StableHlo.after hostOps1_5 (StableHlo.after hostOps1_4 (StableHlo.after hostOps1_3 (StableHlo.after hostOps1_2 (StableHlo.after hostOps1_1 (StableHlo.after hostOps1 (W2 m ρ c))))))) (Proc.devRef .tc main_v43) = _
  generalize W2 m ρ c = Z
  after_results_simp
  rfl

/-! ## After the second call -/

theorem w11_v45 (c : Dev nD) : W11 m ρ c (Proc.devRef .tc main_v45)
    = extractStridedSlice S100000x40 ![0, 0] (W10 m ρ c (Proc.devRef .tc main_v44)) slices_S100000x128_S100000x40_0_0 := by
  show StableHlo.after hostOps2 (W10 m ρ c) (Proc.devRef .tc main_v45) = _
  after_results

end Cert.KernelIdeal.Host

end
-- ==== Proof.Dense.lean ====
/- One output entry of a neighbour-aggregating dense layer, as a plain function of one row of each
   left operand, one column of each weight matrix and one bias entry: the node's own row times the
   self weights, plus its aggregated neighbour row times the neighbour weights, plus the bias. Both
   programs compute every entry of both layers as this expression; only what feeds it differs in
   spelling. -/
import Idealize.ShloMosaic.PureOps.Ideal

noncomputable section

namespace Cert.Sage

open scoped BigOperators

/-- `xr · wsc + hr · wnc + b` over the 128 contracted features, on the extended reals. -/
def denseAt (xr hr wsc wnc : Fin 128 → EReal) (b : EReal) : EReal :=
  (∑ k : Fin 128, xr k * wsc k) + (∑ k : Fin 128, hr k * wnc k) + b

/-- What the first layer does to the dense expression: the rectifier, the maximum with the zero of f32. -/
def stage0 (d : EReal) : EReal := max d (Idealize.ShloMosaic.Ideal.ofBits .f32 0x00000000#32)

/-- What the second layer does to it: nothing. -/
def stage1 (d : EReal) : EReal := d

end Cert.Sage

end
-- ==== Proof.Payload.lean ====
/- The two kernel bodies' stored values read at one entry of the output tile, at the ideal instance.
   Each body loads a 5000-row tile of the node features and of the aggregated neighbour features, the two
   whole weight matrices and the bias row, multiplies tile by matrix twice (the conversions to bf16 are the
   identity on the extended reals, the matrix unit's product into a zero accumulator is the plain sum over
   the 128 contracted features), adds the two products and the broadcast bias, and — in the first layer
   only — clamps below at zero. So entry (p, q) of what is stored is `denseAt` of row p of the two tiles,
   column q of the two matrices and entry q of the bias, clamped or not. -/
import proofs.«414108_j67070209295068_4_alg».proof.Proof.Gen.KernelIdeal.Skeleton
import proofs.«414108_j67070209295068_4_alg».proof.Proof.Dense
import Idealize.ShloMosaic.Lib.Pipeline.Value
import Idealize.ShloMosaic.Lib.ValueIdx
import Idealize.ShloMosaic.PureOps.Ideal.Laws

noncomputable section

open Idealize.ShloMosaic Idealize.ShloMosaic.TcCoe
open Idealize.ShloMosaic.ValueIdx

namespace Cert.KernelIdeal.Payload

open Cert.KernelIdeal Cert.KernelIdeal.Gen Cert.Sage

/-! ## The tile-by-matrix product at an entry -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The matrix unit's product of a tile and a matrix into the zero accumulator, at entry (p, q): row p of the
    tile times column q of the matrix. -/
theorem tile_mul_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  show FloatOps.matmul dot_S5000x128_S128x128_S5000x128_1_0_0_1_n_n none l r (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The bias row broadcast down the tile, at entry (p, q), is the row's entry q. -/
theorem bias_bcast_apply (b : FVec Ideal S1x128 .f32) (p : Fin 5000) (q : Fin 128) :
    broadcastTo S5000x128 b broadcasts_S1x128_S5000x128 (ix2 p q) = b (ix2 (0 : Fin 1) q) :=
  broadcastTo_apply b broadcasts_S1x128_S5000x128 (ix2 p q) (ix2 (0 : Fin 1) q) (fun a => by
    match a with
    | ⟨0, _⟩ => show (0 : Nat) = if (1 : Nat) = 1 then 0 else _; rw [if_pos rfl]
    | ⟨1, _⟩ => show q.val = if (128 : Nat) = 1 then 0 else q.val; rw [if_neg (by decide)])

/-! ## The first layer's stored value -/

/-- Entry (p, q) of the first body's store: the dense expression of row p of the two tiles, clamped below at zero. -/
theorem pay0_apply (x0 x1 : Vec Ideal S5000x128 .f32) (x2 x3 : Vec Ideal S128x128 .f32) (x4 : Vec Ideal S1x128 .f32)
    (p : Fin 5000) (q : Fin 128) :
    k0_pay1 (F := Ideal) x0 x1 x2 x3 x4 (ix2 p q)
      = stage0 (denseAt (fun k => x0 (ix2 p k)) (fun k => x1 (ix2 p k)) (fun k => x2 (ix2 k q)) (fun k => x3 (ix2 k q)) (x4 (ix2 (0 : Fin 1) q))) := by
  unfold k0_pay1 denseAt stage0
  simp only [shapeCast_self]
  rw [maximumf_apply, addf_apply, addf_apply, tile_mul_apply, tile_mul_apply, bias_bcast_apply]
  rfl

/-! ## The second layer's stored value -/

/-- Entry (p, q) of the second body's store: the dense expression of row p of the two tiles. -/
theorem pay1_apply (x0 x1 : Vec Ideal S5000x128 .f32) (x2 x3 : Vec Ideal S128x128 .f32) (x4 : Vec Ideal S1x128 .f32)
    (p : Fin 5000) (q : Fin 128) :
    k1_pay1 (F := Ideal) x0 x1 x2 x3 x4 (ix2 p q)
      = stage1 (denseAt (fun k => x0 (ix2 p k)) (fun k => x1 (ix2 p k)) (fun k => x2 (ix2 k q)) (fun k => x3 (ix2 k q)) (x4 (ix2 (0 : Fin 1) q))) := by
  unfold k1_pay1 denseAt stage1
  simp only [shapeCast_self]
  rw [addf_apply, addf_apply, tile_mul_apply, tile_mul_apply, bias_bcast_apply]
  rfl

end Cert.KernelIdeal.Payload

end
-- ==== Proof.Region0.lean ====
/- The output array of pallas_call 0 (the first layer's dense stage) after its pipeline has run, as ONE function of the
   arrays the call finds.
   The grid has 20 points; point t fetches rows 5000·t … 5000·t + 4999 of the node-feature array and of the
   aggregated-neighbour array, the two weight matrices and the bias row whole, and writes rows 5000·t … of the
   output. What the body stores at entry (p, q) of its tile is the dense expression of row p of the two input
   tiles (Payload), that is of row 5000·t + p of the two arrays: so every write-back is its block of the
   whole-array function `layer`, the 20 blocks tile the 100000 rows, and the array ends holding `layer`. -/
import proofs.«414108_j67070209295068_4_alg».proof.Proof.Gen.KernelIdeal.Frame
import proofs.«414108_j67070209295068_4_alg».proof.Proof.Payload

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region0

open Cert.KernelIdeal Cert.KernelIdeal.Gen Cert.KernelIdeal.Payload Cert.Sage

theorem hz : (![0, 0] : Fin 2 → Nat) = fun _ => 0 := funext fun a => by fin_cases a <;> rfl

/-- The layer as a function of whole arrays: entry (i, j) is the stage of the dense expression of row i of the
    node features and of the aggregated neighbour features, column j of the two weight matrices, entry j of the bias row. -/
def layer (x hn : FVec Ideal S100000x128 .f32) (ws wn : FVec Ideal S128x128 .f32) (b : FVec Ideal S1x128 .f32) :
    FVec Ideal S100000x128 .f32 := fun i =>
  stage0 (denseAt (fun k => x (ix2 (⟨(i 0).val, (i 0).isLt⟩ : Fin 100000) k)) (fun k => hn (ix2 (⟨(i 0).val, (i 0).isLt⟩ : Fin 100000) k))
    (fun k => ws (ix2 k (⟨(i 1).val, (i 1).isLt⟩ : Fin 128))) (fun k => wn (ix2 k (⟨(i 1).val, (i 1).isLt⟩ : Fin 128)))
    (b (ix2 (0 : Fin 1) (⟨(i 1).val, (i 1).isLt⟩ : Fin 128))))

/-- The same entry with its row and column named. -/
theorem layer_apply_of (x hn : FVec Ideal S100000x128 .f32) (ws wn : FVec Ideal S128x128 .f32) (b : FVec Ideal S1x128 .f32)
    (i : S100000x128.Idx) (P : Fin 100000) (Q : Fin 128) (h0 : (i 0).val = P.val) (h1 : (i 1).val = Q.val) :
    layer x hn ws wn b i = stage0 (denseAt (fun k => x (ix2 P k)) (fun k => hn (ix2 P k)) (fun k => ws (ix2 k Q)) (fun k => wn (ix2 k Q)) (b (ix2 (0 : Fin 1) Q))) := by
  obtain rfl : P = ⟨(i 0).val, (i 0).isLt⟩ := Fin.ext h0.symm
  obtain rfl : Q = ⟨(i 1).val, (i 1).isLt⟩ := Fin.ext h1.symm
  rfl

variable (V : (c : Dev nD) → (b : Ref sig .tc) → Buf (Elt Ideal) ((c : Thread nD τ).loc b))

/-- The printed index maps over the grid: the two tiled inputs and the output move down the rows with the point,
    the matrices and the bias row stay. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each input block as entries of its array -/

theorem read_tileA (c : Dev nD) (t : Fin cfg0.N) (p : Fin 5000) (k : Fin 128) (P : Fin 100000) (hP : P.val = 5000 * t.val + p.val) :
    (iblk0 V c 0 t : Vec Ideal S5000x128 .f32) (ix2 p k) = (V c (Pipeline.arrRef spec0 0) : Vec Ideal S100000x128 .f32) (ix2 P k) := by
  obtain ⟨e0, e1, -⟩ := idx_facts t
  unfold iblk0
  rw [View.read_apply]
  refine congrArg (V c (Pipeline.arrRef spec0 0)) (funext fun a => Fin.ext ?_)
  match a with
  | ⟨0, _⟩ => show win0_0.index t (0 : Fin 2) * 5000 + 1 * p.val = P.val; rw [e0, hP]; omega
  | ⟨1, _⟩ => show win0_0.index t (1 : Fin 2) * 128 + 1 * k.val = k.val; rw [e1]; omega

theorem read_tileB (c : Dev nD) (t : Fin cfg0.N) (p : Fin 5000) (k : Fin 128) (P : Fin 100000) (hP : P.val = 5000 * t.val + p.val) :
    (iblk0 V c 1 t : Vec Ideal S5000x128 .f32) (ix2 p k) = (V c (Pipeline.arrRef spec0 1) : Vec Ideal S100000x128 .f32) (ix2 P k) := by
  obtain ⟨-, -, e0, e1, -⟩ := idx_facts t
  unfold iblk0
  rw [View.read_apply]
  refine congrArg (V c (Pipeline.arrRef spec0 1)) (funext fun a => Fin.ext ?_)
  match a with
  | ⟨0, _⟩ => show win0_1.index t (0 : Fin 2) * 5000 + 1 * p.val = P.val; rw [e0, hP]; omega
  | ⟨1, _⟩ => show win0_1.index t (1 : Fin 2) * 128 + 1 * k.val = k.val; rw [e1]; omega

theorem read_matC (c : Dev nD) (t : Fin cfg0.N) (k : Fin 128) (q : Fin 128) :
    (iblk0 V c 2 t : Vec Ideal S128x128 .f32) (ix2 k q) = (V c (Pipeline.arrRef spec0 2) : Vec Ideal S128x128 .f32) (ix2 k q) := by
  obtain ⟨-, -, -, -, e0, e1, -⟩ := idx_facts t
  unfold iblk0
  rw [View.read_apply]
  refine congrArg (V c (Pipeline.arrRef spec0 2)) (funext fun a => Fin.ext ?_)
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem read_matD (c : Dev nD) (t : Fin cfg0.N) (k : Fin 128) (q : Fin 128) :
    (iblk0 V c 3 t : Vec Ideal S128x128 .f32) (ix2 k q) = (V c (Pipeline.arrRef spec0 3) : Vec Ideal S128x128 .f32) (ix2 k q) := by
  obtain ⟨-, -, -, -, -, -, e0, e1, -⟩ := idx_facts t
  unfold iblk0
  rw [View.read_apply]
  refine congrArg (V c (Pipeline.arrRef spec0 3)) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

theorem read_biasE (c : Dev nD) (t : Fin cfg0.N) (q : Fin 128) :
    (iblk0 V c 4 t : Vec Ideal S1x128 .f32) (ix2 (0 : Fin 1) q) = (V c (Pipeline.arrRef spec0 4) : Vec Ideal S1x128 .f32) (ix2 (0 : Fin 1) q) := by
  obtain ⟨-, -, -, -, -, -, -, -, e0, e1, -⟩ := idx_facts t
  unfold iblk0
  rw [View.read_apply]
  refine congrArg (V c (Pipeline.arrRef spec0 4)) (funext fun a => Fin.ext ?_)
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## What a point writes back, and the array after the run -/

set_option maxHeartbeats 2000000 in
/-- What point `t` writes back is block `t` of `layer` of the arrays the call finds. -/
theorem flushed_eq (c : Dev nD) (t : Fin cfg0.N) :
    (dat0 V c).flushed 5 t = ((cfg0.win 5).blk t).view.read (Elt Ideal)
      (layer (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have hN : cfg0.N = 20 := N_0
  have ht : t.val < 20 := hN ▸ t.isLt
  funext j
  have hj0 : (j 0).val < 5000 := (j 0).isLt
  have hj1 : (j 1).val < 128 := (j 1).isLt
  rw [View.read_apply]
  have h0 : ((((cfg0.win 5).blk t).view.emb j) 0).val = (⟨5000 * t.val + (j 0).val, by omega⟩ : Fin 100000).val := by
    show win0_5.index t (0 : Fin 2) * 5000 + 1 * (j 0).val = 5000 * t.val + (j 0).val; rw [e0]; omega
  have h1 : ((((cfg0.win 5).blk t).view.emb j) 1).val = (⟨(j 1).val, hj1⟩ : Fin 128).val := by
    show win0_5.index t (1 : Fin 2) * 128 + 1 * (j 1).val = (j 1).val; rw [e1]; omega
  refine Eq.trans ?_ (layer_apply_of (V c (Pipeline.arrRef spec0 0)) (V c (Pipeline.arrRef spec0 1)) (V c (Pipeline.arrRef spec0 2)) (V c (Pipeline.arrRef spec0 3)) (V c (Pipeline.arrRef spec0 4))
    (((cfg0.win 5).blk t).view.emb j) ⟨5000 * t.val + (j 0).val, by omega⟩ ⟨(j 1).val, hj1⟩ h0 h1).symm
  have e : (win0 5).xinj (grid0.coords t) j = ix2 (⟨(j 0).val, hj0⟩ : Fin 5000) (⟨(j 1).val, hj1⟩ : Fin 128) :=
    funext fun a => by match a with | ⟨0, _⟩ => rfl | ⟨1, _⟩ => rfl
  show k0_pay1 (iblk0 V c 0 t) (iblk0 V c 1 t) (iblk0 V c 2 t) (iblk0 V c 3 t) (iblk0 V c 4 t) ((win0 5).xinj (grid0.coords t) j) = _
  refine (congrArg (k0_pay1 (iblk0 V c 0 t) (iblk0 V c 1 t) (iblk0 V c 2 t) (iblk0 V c 3 t) (iblk0 V c 4 t)) e).trans ?_
  refine (pay0_apply (iblk0 V c 0 t) (iblk0 V c 1 t) (iblk0 V c 2 t) (iblk0 V c 3 t) (iblk0 V c 4 t) ⟨(j 0).val, hj0⟩ ⟨(j 1).val, hj1⟩).trans ?_
  have r0 : (fun k : Fin 128 => (iblk0 V c 0 t : Vec Ideal S5000x128 .f32) (ix2 (⟨(j 0).val, hj0⟩ : Fin 5000) k))
      = fun k => (V c (Pipeline.arrRef spec0 0) : Vec Ideal S100000x128 .f32) (ix2 (⟨5000 * t.val + (j 0).val, by omega⟩ : Fin 100000) k) :=
    funext fun k => read_tileA V c t _ k _ rfl
  have r1 : (fun k : Fin 128 => (iblk0 V c 1 t : Vec Ideal S5000x128 .f32) (ix2 (⟨(j 0).val, hj0⟩ : Fin 5000) k))
      = fun k => (V c (Pipeline.arrRef spec0 1) : Vec Ideal S100000x128 .f32) (ix2 (⟨5000 * t.val + (j 0).val, by omega⟩ : Fin 100000) k) :=
    funext fun k => read_tileB V c t _ k _ rfl
  have r2 : (fun k : Fin 128 => (iblk0 V c 2 t : Vec Ideal S128x128 .f32) (ix2 k (⟨(j 1).val, hj1⟩ : Fin 128)))
      = fun k => (V c (Pipeline.arrRef spec0 2) : Vec Ideal S128x128 .f32) (ix2 k (⟨(j 1).val, hj1⟩ : Fin 128)) :=
    funext fun k => read_matC V c t k _
  have r3 : (fun k : Fin 128 => (iblk0 V c 3 t : Vec Ideal S128x128 .f32) (ix2 k (⟨(j 1).val, hj1⟩ : Fin 128)))
      = fun k => (V c (Pipeline.arrRef spec0 3) : Vec Ideal S128x128 .f32) (ix2 k (⟨(j 1).val, hj1⟩ : Fin 128)) :=
    funext fun k => read_matD V c t k _
  rw [r0, r1, r2, r3, read_biasE V c t]

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- The output array after the run: every row is in the block of the point that holds it (row r in point r / 5000),
    so the array is `layer` of the arrays the call finds. -/
theorem final (c : Dev nD) :
    (dat0 V c).arrAt 5 cfg0.N
      = layer (V c (Pipeline.arrRef spec0 0)) (V c (Pipeline.arrRef spec0 1)) (V c (Pipeline.arrRef spec0 2)) (V c (Pipeline.arrRef spec0 3)) (V c (Pipeline.arrRef spec0 4)) :=
  (dat0 V c).arrAt_eq_of_cover 5 _ (fun t _ => flushed_eq V c t) fun i => by
    have hN : cfg0.N = 20 := N_0
    have hi0 : (i 0).val < 100000 := (i 0).isLt
    have hi1 : (i 1).val < 128 := (i 1).isLt
    refine ⟨⟨(i 0).val / 5000, by rw [hN]; omega⟩, flush0_5 _, ?_⟩
    rw [mem_blk]
    obtain ⟨-, -, -, -, -, -, -, -, -, -, e0, e1⟩ := idx_facts ⟨(i 0).val / 5000, by rw [hN]; omega⟩
    intro a
    match a with
    | ⟨0, _⟩ =>
      show win0_5.index _ (0 : Fin 2) * 5000 ≤ (i 0).val ∧ (i 0).val < win0_5.index _ (0 : Fin 2) * 5000 + 5000
      rw [e0]; show (i 0).val / 5000 * 5000 ≤ (i 0).val ∧ (i 0).val < (i 0).val / 5000 * 5000 + 5000; omega
    | ⟨1, _⟩ =>
      show win0_5.index _ (1 : Fin 2) * 128 ≤ (i 1).val ∧ (i 1).val < win0_5.index _ (1 : Fin 2) * 128 + 128
      rw [e1]; omega

end Cert.KernelIdeal.Region0

end
-- ==== Proof.Region1.lean ====
/- The output array of pallas_call 1 (the second layer's dense stage) after its pipeline has run, as ONE function of the
   arrays the call finds.
   The grid has 20 points; point t fetches rows 5000·t … 5000·t + 4999 of the node-feature array and of the
   aggregated-neighbour array, the two weight matrices and the bias row whole, and writes rows 5000·t … of the
   output. What the body stores at entry (p, q) of its tile is the dense expression of row p of the two input
   tiles (Payload), that is of row 5000·t + p of the two arrays: so every write-back is its block of the
   whole-array function `layer`, the 20 blocks tile the 100000 rows, and the array ends holding `layer`. -/
import proofs.«414108_j67070209295068_4_alg».proof.Proof.Gen.KernelIdeal.Frame
import proofs.«414108_j67070209295068_4_alg».proof.Proof.Payload

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region1

open Cert.KernelIdeal Cert.KernelIdeal.Gen Cert.KernelIdeal.Payload Cert.Sage

theorem hz : (![0, 0] : Fin 2 → Nat) = fun _ => 0 := funext fun a => by fin_cases a <;> rfl

/-- The layer as a function of whole arrays: entry (i, j) is the stage of the dense expression of row i of the
    node features and of the aggregated neighbour features, column j of the two weight matrices, entry j of the bias row. -/
def layer (x hn : FVec Ideal S100000x128 .f32) (ws wn : FVec Ideal S128x128 .f32) (b : FVec Ideal S1x128 .f32) :
    FVec Ideal S100000x128 .f32 := fun i =>
  stage1 (denseAt (fun k => x (ix2 (⟨(i 0).val, (i 0).isLt⟩ : Fin 100000) k)) (fun k => hn (ix2 (⟨(i 0).val, (i 0).isLt⟩ : Fin 100000) k))
    (fun k => ws (ix2 k (⟨(i 1).val, (i 1).isLt⟩ : Fin 128))) (fun k => wn (ix2 k (⟨(i 1).val, (i 1).isLt⟩ : Fin 128)))
    (b (ix2 (0 : Fin 1) (⟨(i 1).val, (i 1).isLt⟩ : Fin 128))))

/-- The same entry with its row and column named. -/
theorem layer_apply_of (x hn : FVec Ideal S100000x128 .f32) (ws wn : FVec Ideal S128x128 .f32) (b : FVec Ideal S1x128 .f32)
    (i : S100000x128.Idx) (P : Fin 100000) (Q : Fin 128) (h0 : (i 0).val = P.val) (h1 : (i 1).val = Q.val) :
    layer x hn ws wn b i = stage1 (denseAt (fun k => x (ix2 P k)) (fun k => hn (ix2 P k)) (fun k => ws (ix2 k Q)) (fun k => wn (ix2 k Q)) (b (ix2 (0 : Fin 1) Q))) := by
  obtain rfl : P = ⟨(i 0).val, (i 0).isLt⟩ := Fin.ext h0.symm
  obtain rfl : Q = ⟨(i 1).val, (i 1).isLt⟩ := Fin.ext h1.symm
  rfl

variable (V : (c : Dev nD) → (b : Ref sig .tc) → Buf (Elt Ideal) ((c : Thread nD τ).loc b))

/-- The printed index maps over the grid: the two tiled inputs and the output move down the rows with the point,
    the matrices and the bias row stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block as entries of its array -/

theorem read_tileA (c : Dev nD) (t : Fin cfg1.N) (p : Fin 5000) (k : Fin 128) (P : Fin 100000) (hP : P.val = 5000 * t.val + p.val) :
    (iblk1 V c 0 t : Vec Ideal S5000x128 .f32) (ix2 p k) = (V c (Pipeline.arrRef spec1 0) : Vec Ideal S100000x128 .f32) (ix2 P k) := by
  obtain ⟨e0, e1, -⟩ := idx_facts t
  unfold iblk1
  rw [View.read_apply]
  refine congrArg (V c (Pipeline.arrRef spec1 0)) (funext fun a => Fin.ext ?_)
  match a with
  | ⟨0, _⟩ => show win1_0.index t (0 : Fin 2) * 5000 + 1 * p.val = P.val; rw [e0, hP]; omega
  | ⟨1, _⟩ => show win1_0.index t (1 : Fin 2) * 128 + 1 * k.val = k.val; rw [e1]; omega

theorem read_tileB (c : Dev nD) (t : Fin cfg1.N) (p : Fin 5000) (k : Fin 128) (P : Fin 100000) (hP : P.val = 5000 * t.val + p.val) :
    (iblk1 V c 1 t : Vec Ideal S5000x128 .f32) (ix2 p k) = (V c (Pipeline.arrRef spec1 1) : Vec Ideal S100000x128 .f32) (ix2 P k) := by
  obtain ⟨-, -, e0, e1, -⟩ := idx_facts t
  unfold iblk1
  rw [View.read_apply]
  refine congrArg (V c (Pipeline.arrRef spec1 1)) (funext fun a => Fin.ext ?_)
  match a with
  | ⟨0, _⟩ => show win1_1.index t (0 : Fin 2) * 5000 + 1 * p.val = P.val; rw [e0, hP]; omega
  | ⟨1, _⟩ => show win1_1.index t (1 : Fin 2) * 128 + 1 * k.val = k.val; rw [e1]; omega

theorem read_matC (c : Dev nD) (t : Fin cfg1.N) (k : Fin 128) (q : Fin 128) :
    (iblk1 V c 2 t : Vec Ideal S128x128 .f32) (ix2 k q) = (V c (Pipeline.arrRef spec1 2) : Vec Ideal S128x128 .f32) (ix2 k q) := by
  obtain ⟨-, -, -, -, e0, e1, -⟩ := idx_facts t
  unfold iblk1
  rw [View.read_apply]
  refine congrArg (V c (Pipeline.arrRef spec1 2)) (funext fun a => Fin.ext ?_)
  match a with
  | ⟨0, _⟩ => show win1_2.index t (0 : Fin 2) * 128 + 1 * k.val = k.val; rw [e0]; omega
  | ⟨1, _⟩ => show win1_2.index t (1 : Fin 2) * 128 + 1 * q.val = q.val; rw [e1]; omega

theorem read_matD (c : Dev nD) (t : Fin cfg1.N) (k : Fin 128) (q : Fin 128) :
    (iblk1 V c 3 t : Vec Ideal S128x128 .f32) (ix2 k q) = (V c (Pipeline.arrRef spec1 3) : Vec Ideal S128x128 .f32) (ix2 k q) := by
  obtain ⟨-, -, -, -, -, -, e0, e1, -⟩ := idx_facts t
  unfold iblk1
  rw [View.read_apply]
  refine congrArg (V c (Pipeline.arrRef spec1 3)) (funext fun a => Fin.ext ?_)
  match a with
  | ⟨0, _⟩ => show win1_3.index t (0 : Fin 2) * 128 + 1 * k.val = k.val; rw [e0]; omega
  | ⟨1, _⟩ => show win1_3.index t (1 : Fin 2) * 128 + 1 * q.val = q.val; rw [e1]; omega

theorem read_biasE (c : Dev nD) (t : Fin cfg1.N) (q : Fin 128) :
    (iblk1 V c 4 t : Vec Ideal S1x128 .f32) (ix2 (0 : Fin 1) q) = (V c (Pipeline.arrRef spec1 4) : Vec Ideal S1x128 .f32) (ix2 (0 : Fin 1) q) := by
  obtain ⟨-, -, -, -, -, -, -, -, e0, e1, -⟩ := idx_facts t
  unfold iblk1
  rw [View.read_apply]
  refine congrArg (V c (Pipeline.arrRef spec1 4)) (funext fun a => Fin.ext ?_)
  match a with
  | ⟨0, _⟩ => show win1_4.index t (0 : Fin 2) * 1 + 1 * 0 = 0; rw [e0]
  | ⟨1, _⟩ => show win1_4.index t (1 : Fin 2) * 128 + 1 * q.val = q.val; rw [e1]; omega

/-! ## What a point writes back, and the array after the run -/

set_option maxHeartbeats 2000000 in
/-- What point `t` writes back is block `t` of `layer` of the arrays the call finds. -/
theorem flushed_eq (c : Dev nD) (t : Fin cfg1.N) :
    (dat1 V c).flushed 5 t = ((cfg1.win 5).blk t).view.read (Elt Ideal)
      (layer (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  obtain ⟨-, -, -, -, -, -, -, -, -, -, e0, e1⟩ := idx_facts t
  have hN : cfg1.N = 20 := N_1
  have ht : t.val < 20 := hN ▸ t.isLt
  funext j
  have hj0 : (j 0).val < 5000 := (j 0).isLt
  have hj1 : (j 1).val < 128 := (j 1).isLt
  rw [View.read_apply]
  have h0 : ((((cfg1.win 5).blk t).view.emb j) 0).val = (⟨5000 * t.val + (j 0).val, by omega⟩ : Fin 100000).val := by
    show win1_5.index t (0 : Fin 2) * 5000 + 1 * (j 0).val = 5000 * t.val + (j 0).val; rw [e0]; omega
  have h1 : ((((cfg1.win 5).blk t).view.emb j) 1).val = (⟨(j 1).val, hj1⟩ : Fin 128).val := by
    show win1_5.index t (1 : Fin 2) * 128 + 1 * (j 1).val = (j 1).val; rw [e1]; omega
  refine Eq.trans ?_ (layer_apply_of (V c (Pipeline.arrRef spec1 0)) (V c (Pipeline.arrRef spec1 1)) (V c (Pipeline.arrRef spec1 2)) (V c (Pipeline.arrRef spec1 3)) (V c (Pipeline.arrRef spec1 4))
    (((cfg1.win 5).blk t).view.emb j) ⟨5000 * t.val + (j 0).val, by omega⟩ ⟨(j 1).val, hj1⟩ h0 h1).symm
  have e : (win1 5).xinj (grid1.coords t) j = ix2 (⟨(j 0).val, hj0⟩ : Fin 5000) (⟨(j 1).val, hj1⟩ : Fin 128) :=
    funext fun a => by match a with | ⟨0, _⟩ => rfl | ⟨1, _⟩ => rfl
  show k1_pay1 (iblk1 V c 0 t) (iblk1 V c 1 t) (iblk1 V c 2 t) (iblk1 V c 3 t) (iblk1 V c 4 t) ((win1 5).xinj (grid1.coords t) j) = _
  refine (congrArg (k1_pay1 (iblk1 V c 0 t) (iblk1 V c 1 t) (iblk1 V c 2 t) (iblk1 V c 3 t) (iblk1 V c 4 t)) e).trans ?_
  refine (pay1_apply (iblk1 V c 0 t) (iblk1 V c 1 t) (iblk1 V c 2 t) (iblk1 V c 3 t) (iblk1 V c 4 t) ⟨(j 0).val, hj0⟩ ⟨(j 1).val, hj1⟩).trans ?_
  have r0 : (fun k : Fin 128 => (iblk1 V c 0 t : Vec Ideal S5000x128 .f32) (ix2 (⟨(j 0).val, hj0⟩ : Fin 5000) k))
      = fun k => (V c (Pipeline.arrRef spec1 0) : Vec Ideal S100000x128 .f32) (ix2 (⟨5000 * t.val + (j 0).val, by omega⟩ : Fin 100000) k) :=
    funext fun k => read_tileA V c t _ k _ rfl
  have r1 : (fun k : Fin 128 => (iblk1 V c 1 t : Vec Ideal S5000x128 .f32) (ix2 (⟨(j 0).val, hj0⟩ : Fin 5000) k))
      = fun k => (V c (Pipeline.arrRef spec1 1) : Vec Ideal S100000x128 .f32) (ix2 (⟨5000 * t.val + (j 0).val, by omega⟩ : Fin 100000) k) :=
    funext fun k => read_tileB V c t _ k _ rfl
  have r2 : (fun k : Fin 128 => (iblk1 V c 2 t : Vec Ideal S128x128 .f32) (ix2 k (⟨(j 1).val, hj1⟩ : Fin 128)))
      = fun k => (V c (Pipeline.arrRef spec1 2) : Vec Ideal S128x128 .f32) (ix2 k (⟨(j 1).val, hj1⟩ : Fin 128)) :=
    funext fun k => read_matC V c t k _
  have r3 : (fun k : Fin 128 => (iblk1 V c 3 t : Vec Ideal S128x128 .f32) (ix2 k (⟨(j 1).val, hj1⟩ : Fin 128)))
      = fun k => (V c (Pipeline.arrRef spec1 3) : Vec Ideal S128x128 .f32) (ix2 k (⟨(j 1).val, hj1⟩ : Fin 128)) :=
    funext fun k => read_matD V c t k _
  rw [r0, r1, r2, r3, read_biasE V c t]

/-- An index of the output array is in point `t`'s block iff each coordinate is in the block's range on its axis. -/
theorem mem_blk (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole (Pipeline.arrRef spec1 5)).slice (win1_5.rect t)).set ↔ _
  rw [View.set_slice_whole, Rect.mem_set_unit]
  exact Iff.rfl

/-- The output array after the run: every row is in the block of the point that holds it (row r in point r / 5000),
    so the array is `layer` of the arrays the call finds. -/
theorem final (c : Dev nD) :
    (dat1 V c).arrAt 5 cfg1.N
      = layer (V c (Pipeline.arrRef spec1 0)) (V c (Pipeline.arrRef spec1 1)) (V c (Pipeline.arrRef spec1 2)) (V c (Pipeline.arrRef spec1 3)) (V c (Pipeline.arrRef spec1 4)) :=
  (dat1 V c).arrAt_eq_of_cover 5 _ (fun t _ => flushed_eq V c t) fun i => by
    have hN : cfg1.N = 20 := N_1
    have hi0 : (i 0).val < 100000 := (i 0).isLt
    have hi1 : (i 1).val < 128 := (i 1).isLt
    refine ⟨⟨(i 0).val / 5000, by rw [hN]; omega⟩, flush1_5 _, ?_⟩
    rw [mem_blk]
    obtain ⟨-, -, -, -, -, -, -, -, -, -, e0, e1⟩ := idx_facts ⟨(i 0).val / 5000, by rw [hN]; omega⟩
    intro a
    match a with
    | ⟨0, _⟩ =>
      show win1_5.index _ (0 : Fin 2) * 5000 ≤ (i 0).val ∧ (i 0).val < win1_5.index _ (0 : Fin 2) * 5000 + 5000
      rw [e0]; show (i 0).val / 5000 * 5000 ≤ (i 0).val ∧ (i 0).val < (i 0).val / 5000 * 5000 + 5000; omega
    | ⟨1, _⟩ =>
      show win1_5.index _ (1 : Fin 2) * 128 ≤ (i 1).val ∧ (i 1).val < win1_5.index _ (1 : Fin 2) * 128 + 128
      rw [e1]; omega

end Cert.KernelIdeal.Region1

end
-- ==== Proof.KernelValue.lean ====
/- The kernel's program as one function of its arguments. Its result buffer ends at the first 40 columns of the
   second call's output array; that array is the second layer applied to the hidden layer, to the hidden layer's
   neighbour mean, to the zero-padded second-layer weights and to the zero-padded bias row; and the hidden layer is the
   first call's output array: the first layer applied to the node features, to their neighbour mean, to the
   first-layer weights and to the bias row. Each array is read where the call or the host stretch that wrote it left
   it (HostChain), and each call's output array is its layer of the arrays the call found (Region0, Region1). -/
import proofs.«414108_j67070209295068_4_alg».proof.Proof.KernelRun
import proofs.«414108_j67070209295068_4_alg».proof.Proof.HostChain
import proofs.«414108_j67070209295068_4_alg».proof.Proof.Region0
import proofs.«414108_j67070209295068_4_alg».proof.Proof.Region1

set_option maxRecDepth 16384

noncomputable section

open Idealize.ShloMosaic Idealize.ShloMosaic.TcCoe Idealize.SL.Sem

namespace Cert.KernelIdeal.Whole

open Cert.KernelIdeal Cert.KernelIdeal.Gen Cert.KernelIdeal.Host

/-- The hidden layer: the first layer of the node features and their neighbour mean. -/
def hidden (x : FVec Ideal S100000x128 .f32) (src dst : IVec S1600000 32) (ws wn : FVec Ideal S128x128 .f32) (b : FVec Ideal S128 .f32) :
    FVec Ideal S100000x128 .f32 :=
  Region0.layer x (agg (F := Ideal) x src dst) ws wn (rowB (F := Ideal) b)

/-- The program's result: the first 40 columns of the second layer of the hidden layer and its neighbour mean, the
    second layer's weights and biases padded with zeros to 128 columns. -/
def result (x : FVec Ideal S100000x128 .f32) (src dst : IVec S1600000 32) (w1s w1n : FVec Ideal S128x128 .f32) (b1 : FVec Ideal S128 .f32)
    (w2s w2n : FVec Ideal S128x40 .f32) (b2 : FVec Ideal S40 .f32) : FVec Ideal S100000x40 .f32 :=
  extractStridedSlice S100000x40 ![0, 0]
    (Region1.layer (hidden x src dst w1s w1n b1) (agg (F := Ideal) (hidden x src dst w1s w1n b1) src dst)
      (padW (F := Ideal) w2s) (padW (F := Ideal) w2n) (padB (F := Ideal) b2))
    slices_S100000x128_S100000x40_0_0

variable (m : (ℓ : Loc nD τ sig) → Buf (Elt Ideal) ℓ) (ρ : Dev nD → PrngReg)

/-- After the first call its output array holds the hidden layer of the arguments. -/
theorem hidden_at (c : Dev nD) : W2 m ρ c (Proc.devRef .tc main_v20)
    = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 5).trans ?_
  refine (Region0.final (V1 m ρ) c).trans ?_
  show Region0.layer (W1 m ρ c (Proc.devRef .tc main_arg0)) (W1 m ρ c (Proc.devRef .tc main_v18)) (W1 m ρ c (Proc.devRef .tc main_arg3))
    (W1 m ρ c (Proc.devRef .tc main_arg4)) (W1 m ρ c (Proc.devRef .tc main_v19)) = _
  rw [w1_arg0, w1_v18, w1_arg3, w1_arg4, w1_v19]
  rfl

/-- At the return the result buffer holds `result` of the arguments. -/
theorem result_at (c : Dev nD) : W11 m ρ c (Proc.devRef .tc main_v45)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [w11_v45]
  refine congrArg (fun a : FVec Ideal S100000x128 .f32 => extractStridedSlice S100000x40 ![0, 0] a slices_S100000x128_S100000x40_0_0) ?_
  refine (W10_arr m ρ c 5).trans ?_
  refine (Region1.final (V9 m ρ) c).trans ?_
  show Region1.layer (W9 m ρ c (Proc.devRef .tc main_v20)) (W9 m ρ c (Proc.devRef .tc main_v39)) (W9 m ρ c (Proc.devRef .tc main_v40))
    (W9 m ρ c (Proc.devRef .tc main_v41)) (W9 m ρ c (Proc.devRef .tc main_v43)) = _
  rw [w9_v20, w9_v39, w9_v40, w9_v41, w9_v43, hidden_at]

/-- The run, read: every weakly fair execution terminates with the result buffer at `result` of the arguments and
    the arguments unchanged. -/
theorem run : θ_run defs (onTc (τ := τ) (main (F := Ideal))) ⟨m, fun _ => 0, ρ⟩ fun r => ∀ c : Dev nD,
      r.2.mem ((c.tc : Thread nD τ).loc main_v45) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (result_at m ρ c), (h c).2⟩) (Cert.KernelIdeal.GenRun.run_result m ρ)

end Cert.KernelIdeal.Whole

end
-- ==== Proof.Bridge.lean ====
/- The reference's result is the kernel program's function of the arguments, entry by entry, on the extended reals.
   Both programs form the neighbour mean by the same host operations (`agg_eq`, `agg_hidden_eq`: the two spellings
   unfold to one term). Each entry of the reference's hidden layer is the rectified dense expression of a row of the
   node features and of their neighbour mean, a column of each first-layer weight matrix and a bias entry — its two
   matrix products are sums over the 128 features — which is what the first call's array holds (`hidden_eq`).
   Each of the reference's 100000 × 40 results is the dense expression of a row of the hidden layer and of its neighbour
   mean, a column of each 128 × 40 weight matrix and a bias entry; the kernel's program computes the same expression
   against the weights padded with 88 zero columns and keeps columns 0 … 39, where the padded matrices and the padded
   bias are the unpadded ones (`result_eq`). No algebraic law is used: the two sides are the same expression. -/
import proofs.«414108_j67070209295068_4_alg».proof.Proof.KernelValue
import proofs.«414108_j67070209295068_4_alg».proof.Proof.Gen.ReferenceIdeal.Read
import Idealize.ShloMosaic.Lib.KernelVsHost

set_option maxRecDepth 16384

noncomputable section

open Idealize.ShloMosaic Idealize.ShloMosaic.TcCoe
open Idealize.ShloMosaic.ValueIdx

namespace Cert.KernelIdeal.Bridge

open Cert.KernelIdeal Cert.KernelIdeal.Gen Cert.KernelIdeal.Host Cert.Sage

/-! ## The host-side pieces read at an entry -/

/-- The bias vector viewed as one row: entry (0, q) is entry q. -/
theorem rowB_apply (b : FVec Ideal S128 .f32) (q : Fin 128) : rowB (F := Ideal) b (ix2 (0 : Fin 1) q) = b (ix1 q) := by
  unfold rowB
  refine shapeCast_apply b shapeCasts_S128_S1x128 (ix2 (0 : Fin 1) q) (ix1 q) ?_
  rw [Shape.rowMajor_val_one, Shape.rowMajor_val_two]
  show q.val = 0 * 128 + q.val
  omega

/-- A padded weight matrix read in one of its first 40 columns is the matrix. -/
theorem padW_apply (w : FVec Ideal S128x40 .f32) (k : Fin 128) (q : Fin 40) (Q : Fin 128) (hQ : Q.val = q.val) :
    padW (F := Ideal) w (ix2 k Q) = w (ix2 k q) := by
  unfold padW
  refine pad_apply_of_inside _ _ _ w _ pads_S128x40_S128x128_000_0880 h_S_ (ix2 k Q) (ix2 k q) (fun a => ?_)
  match a with
  | ⟨0, _⟩ => show k.val = 0 + k.val * (0 + 1); omega
  | ⟨1, _⟩ => show Q.val = 0 + q.val * (0 + 1); omega

/-- The padded bias row read in one of its first 40 entries is the bias. -/
theorem padB_apply (b : FVec Ideal S40 .f32) (q : Fin 40) (Q : Fin 128) (hQ : Q.val = q.val) :
    padB (F := Ideal) b (ix2 (0 : Fin 1) Q) = b (ix1 q) := by
  unfold padB
  refine (shapeCast_apply _ shapeCasts_S128_S1x128 (ix2 (0 : Fin 1) Q) (ix1 Q) ?_).trans ?_
  · rw [Shape.rowMajor_val_one, Shape.rowMajor_val_two]
    show Q.val = 0 * 128 + Q.val
    omega
  · refine pad_apply_of_inside _ _ _ b _ pads_S40_S128_0880 h_S_ (ix1 Q) (ix1 q) (fun a => ?_)
    match a with
    | ⟨0, _⟩ => show Q.val = 0 + q.val * (0 + 1); omega

/-! ## The neighbour mean in the two programs' spellings -/

set_option maxHeartbeats 1000000 in
theorem agg_eq (x : FVec Ideal S100000x128 .f32) (src dst : IVec S1600000 32) :
    agg (F := Ideal) x src dst = Cert.ReferenceIdeal.Read.val_main_v18 (F := Ideal) x src dst := by
  unfold agg
  unfold Cert.ReferenceIdeal.Read.val_main_v18 Cert.ReferenceIdeal.Read.val_main_v9 Cert.ReferenceIdeal.Read.val_main_v17 Cert.ReferenceIdeal.Read.val_main_v16 Cert.ReferenceIdeal.Read.val_main_v15 Cert.ReferenceIdeal.Read.val_main_v13 Cert.ReferenceIdeal.Read.val_main_v14 Cert.ReferenceIdeal.Read.val_main_v12 Cert.ReferenceIdeal.Read.val_main_v11 Cert.ReferenceIdeal.Read.val_main_v10 Cert.ReferenceIdeal.Read.val_main_cst_1 Cert.ReferenceIdeal.Read.val_main_cst_2 Cert.ReferenceIdeal.Read.val_main_cst_3 Cert.ReferenceIdeal.Read.val_main_v8 Cert.ReferenceIdeal.Read.val_main_v7 Cert.ReferenceIdeal.Read.val_main_cst Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0
  rfl

set_option maxHeartbeats 1000000 in
theorem agg_hidden_eq (x0 : FVec Ideal S100000x128 .f32) (x1 x2 : IVec S1600000 32) (x3 x4 : FVec Ideal S128x128 .f32) (x5 : FVec Ideal S128 .f32) :
    agg (F := Ideal) (Cert.ReferenceIdeal.Read.val_main_v25 (F := Ideal) x0 x1 x2 x3 x4 x5) x1 x2 = Cert.ReferenceIdeal.Read.val_main_v44 (F := Ideal) x0 x1 x2 x3 x4 x5 := by
  unfold agg
  unfold Cert.ReferenceIdeal.Read.val_main_v44 Cert.ReferenceIdeal.Read.val_main_v35 Cert.ReferenceIdeal.Read.val_main_v43 Cert.ReferenceIdeal.Read.val_main_v42 Cert.ReferenceIdeal.Read.val_main_v41 Cert.ReferenceIdeal.Read.val_main_v39 Cert.ReferenceIdeal.Read.val_main_v40 Cert.ReferenceIdeal.Read.val_main_v38 Cert.ReferenceIdeal.Read.val_main_v37 Cert.ReferenceIdeal.Read.val_main_v36 Cert.ReferenceIdeal.Read.val_main_cst_7 Cert.ReferenceIdeal.Read.val_main_cst_8 Cert.ReferenceIdeal.Read.val_main_cst_9 Cert.ReferenceIdeal.Read.val_main_v34 Cert.ReferenceIdeal.Read.val_main_v33 Cert.ReferenceIdeal.Read.val_main_cst_6 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_c_4 Cert.ReferenceIdeal.Read.val_main_c_5
  rfl

/-! ## The reference's index functions are rows and columns -/

theorem lidx19 (i : S100000x128.Idx) (k : Fin 128) : Cert.ReferenceIdeal.Read.lidx_main_v19 i k = ix2 (⟨(i 0).val, (i 0).isLt⟩ : Fin 100000) k :=
  funext fun a => by match a with | ⟨0, _⟩ => rfl | ⟨1, _⟩ => rfl
theorem ridx19 (i : S100000x128.Idx) (k : Fin 128) : Cert.ReferenceIdeal.Read.ridx_main_v19 i k = ix2 k (⟨(i 1).val, (i 1).isLt⟩ : Fin 128) :=
  funext fun a => by match a with | ⟨0, _⟩ => rfl | ⟨1, _⟩ => rfl
theorem lidx20 (i : S100000x128.Idx) (k : Fin 128) : Cert.ReferenceIdeal.Read.lidx_main_v20 i k = ix2 (⟨(i 0).val, (i 0).isLt⟩ : Fin 100000) k :=
  funext fun a => by match a with | ⟨0, _⟩ => rfl | ⟨1, _⟩ => rfl
theorem ridx20 (i : S100000x128.Idx) (k : Fin 128) : Cert.ReferenceIdeal.Read.ridx_main_v20 i k = ix2 k (⟨(i 1).val, (i 1).isLt⟩ : Fin 128) :=
  funext fun a => by match a with | ⟨0, _⟩ => rfl | ⟨1, _⟩ => rfl
theorem bidx23 (i : S100000x128.Idx) : Cert.ReferenceIdeal.Read.idx_main_v22 (Cert.ReferenceIdeal.Read.idx_main_v23 i) = ix1 (⟨(i 1).val, (i 1).isLt⟩ : Fin 128) :=
  funext fun a => by match a with | ⟨0, _⟩ => rfl
theorem lidx45 (i : S100000x40.Idx) (k : Fin 128) : Cert.ReferenceIdeal.Read.lidx_main_v45 i k = ix2 (⟨(i 0).val, (i 0).isLt⟩ : Fin 100000) k :=
  funext fun a => by match a with | ⟨0, _⟩ => rfl | ⟨1, _⟩ => rfl
theorem ridx45 (i : S100000x40.Idx) (k : Fin 128) : Cert.ReferenceIdeal.Read.ridx_main_v45 i k = ix2 k (⟨(i 1).val, (i 1).isLt⟩ : Fin 40) :=
  funext fun a => by match a with | ⟨0, _⟩ => rfl | ⟨1, _⟩ => rfl
theorem lidx46 (i : S100000x40.Idx) (k : Fin 128) : Cert.ReferenceIdeal.Read.lidx_main_v46 i k = ix2 (⟨(i 0).val, (i 0).isLt⟩ : Fin 100000) k :=
  funext fun a => by match a with | ⟨0, _⟩ => rfl | ⟨1, _⟩ => rfl
theorem ridx46 (i : S100000x40.Idx) (k : Fin 128) : Cert.ReferenceIdeal.Read.ridx_main_v46 i k = ix2 k (⟨(i 1).val, (i 1).isLt⟩ : Fin 40) :=
  funext fun a => by match a with | ⟨0, _⟩ => rfl | ⟨1, _⟩ => rfl
theorem bidx49 (i : S100000x40.Idx) : Cert.ReferenceIdeal.Read.idx_main_v48 (Cert.ReferenceIdeal.Read.idx_main_v49 i) = ix1 (⟨(i 1).val, (i 1).isLt⟩ : Fin 40) :=
  funext fun a => by match a with | ⟨0, _⟩ => rfl

/-! ## The hidden layer -/

/-- The first call's array is the reference's rectified first layer. -/
theorem hidden_eq (x : FVec Ideal S100000x128 .f32) (src dst : IVec S1600000 32) (ws wn : FVec Ideal S128x128 .f32) (b : FVec Ideal S128 .f32) :
    Whole.hidden x src dst ws wn b = Cert.ReferenceIdeal.Read.val_main_v25 (F := Ideal) x src dst ws wn b := by
  funext i
  unfold Whole.hidden
  rw [Region0.layer_apply_of _ _ _ _ _ i ⟨(i 0).val, (i 0).isLt⟩ ⟨(i 1).val, (i 1).isLt⟩ rfl rfl]
  rw [Cert.ReferenceIdeal.Read.val_main_v25_apply, Cert.ReferenceIdeal.Read.val_main_v24_apply, Cert.ReferenceIdeal.Read.val_main_v21_apply, Cert.ReferenceIdeal.Read.val_main_v19_apply, Cert.ReferenceIdeal.Read.val_main_v20_apply,
    Cert.ReferenceIdeal.Read.val_main_v23_apply, Cert.ReferenceIdeal.Read.val_main_v22_apply, Cert.ReferenceIdeal.Read.val_main_call0_v0_apply, Cert.ReferenceIdeal.Read.val_main_call0_cst_apply]
  rw [rowB_apply, agg_eq, bidx23]
  have s1 : (∑ k : Fin 128, x (Cert.ReferenceIdeal.Read.lidx_main_v19 i k) * ws (Cert.ReferenceIdeal.Read.ridx_main_v19 i k))
      = ∑ k : Fin 128, x (ix2 (⟨(i 0).val, (i 0).isLt⟩ : Fin 100000) k) * ws (ix2 k (⟨(i 1).val, (i 1).isLt⟩ : Fin 128)) :=
    Finset.sum_congr rfl fun k _ => by rw [lidx19 i k, ridx19 i k]
  have s2 : (∑ k : Fin 128, Cert.ReferenceIdeal.Read.val_main_v18 (F := Ideal) x src dst (Cert.ReferenceIdeal.Read.lidx_main_v20 i k) * wn (Cert.ReferenceIdeal.Read.ridx_main_v20 i k))
      = ∑ k : Fin 128, Cert.ReferenceIdeal.Read.val_main_v18 (F := Ideal) x src dst (ix2 (⟨(i 0).val, (i 0).isLt⟩ : Fin 100000) k) * wn (ix2 k (⟨(i 1).val, (i 1).isLt⟩ : Fin 128)) :=
    Finset.sum_congr rfl fun k _ => by rw [lidx20 i k, ridx20 i k]
  rw [s1, s2]
  rfl

/-! ## The result -/

/-- The reference's result is the kernel program's. -/
theorem result_eq (x : FVec Ideal S100000x128 .f32) (src dst : IVec S1600000 32) (w1s w1n : FVec Ideal S128x128 .f32) (b1 : FVec Ideal S128 .f32)
    (w2s w2n : FVec Ideal S128x40 .f32) (b2 : FVec Ideal S40 .f32) :
    Cert.ReferenceIdeal.Read.val_main_v50 (F := Ideal) x src dst w1s w1n b1 w2s w2n b2 = Whole.result x src dst w1s w1n b1 w2s w2n b2 := by
  funext i
  have hi0 : (i 0).val < 100000 := (i 0).isLt
  have hi1 : (i 1).val < 40 := (i 1).isLt
  have hk : Whole.result x src dst w1s w1n b1 w2s w2n b2 i
      = stage1 (denseAt (fun k => Whole.hidden x src dst w1s w1n b1 (ix2 (⟨(i 0).val, hi0⟩ : Fin 100000) k))
          (fun k => agg (F := Ideal) (Whole.hidden x src dst w1s w1n b1) src dst (ix2 (⟨(i 0).val, hi0⟩ : Fin 100000) k))
          (fun k => w2s (ix2 k (⟨(i 1).val, hi1⟩ : Fin 40))) (fun k => w2n (ix2 k (⟨(i 1).val, hi1⟩ : Fin 40))) (b2 (ix1 (⟨(i 1).val, hi1⟩ : Fin 40)))) := by
    unfold Whole.result
    rw [extractStridedSlice_apply _ _ slices_S100000x128_S100000x40_0_0 i (ix2 (⟨(i 0).val, hi0⟩ : Fin 100000) (⟨(i 1).val, by omega⟩ : Fin 128)) (fun a => by
      match a with
      | ⟨0, _⟩ => show (i 0).val = 0 + (i 0).val; omega
      | ⟨1, _⟩ => show (i 1).val = 0 + (i 1).val; omega)]
    rw [Region1.layer_apply_of _ _ _ _ _ _ ⟨(i 0).val, hi0⟩ ⟨(i 1).val, by omega⟩ rfl rfl]
    have e1 : (fun k : Fin 128 => padW (F := Ideal) w2s (ix2 k (⟨(i 1).val, by omega⟩ : Fin 128))) = fun k => w2s (ix2 k (⟨(i 1).val, hi1⟩ : Fin 40)) :=
      funext fun k => padW_apply w2s k _ _ rfl
    have e2 : (fun k : Fin 128 => padW (F := Ideal) w2n (ix2 k (⟨(i 1).val, by omega⟩ : Fin 128))) = fun k => w2n (ix2 k (⟨(i 1).val, hi1⟩ : Fin 40)) :=
      funext fun k => padW_apply w2n k _ _ rfl
    rw [e1, e2, padB_apply b2 ⟨(i 1).val, hi1⟩ ⟨(i 1).val, by omega⟩ rfl]
  rw [hk, hidden_eq, agg_hidden_eq]
  rw [Cert.ReferenceIdeal.Read.val_main_v50_apply, Cert.ReferenceIdeal.Read.val_main_v47_apply, Cert.ReferenceIdeal.Read.val_main_v45_apply, Cert.ReferenceIdeal.Read.val_main_v46_apply, Cert.ReferenceIdeal.Read.val_main_v49_apply, Cert.ReferenceIdeal.Read.val_main_v48_apply, bidx49]
  have s1 : (∑ k : Fin 128, Cert.ReferenceIdeal.Read.val_main_v25 (F := Ideal) x src dst w1s w1n b1 (Cert.ReferenceIdeal.Read.lidx_main_v45 i k) * w2s (Cert.ReferenceIdeal.Read.ridx_main_v45 i k))
      = ∑ k : Fin 128, Cert.ReferenceIdeal.Read.val_main_v25 (F := Ideal) x src dst w1s w1n b1 (ix2 (⟨(i 0).val, hi0⟩ : Fin 100000) k) * w2s (ix2 k (⟨(i 1).val, hi1⟩ : Fin 40)) :=
    Finset.sum_congr rfl fun k _ => by rw [lidx45 i k, ridx45 i k]
  have s2 : (∑ k : Fin 128, Cert.ReferenceIdeal.Read.val_main_v44 (F := Ideal) x src dst w1s w1n b1 (Cert.ReferenceIdeal.Read.lidx_main_v46 i k) * w2n (Cert.ReferenceIdeal.Read.ridx_main_v46 i k))
      = ∑ k : Fin 128, Cert.ReferenceIdeal.Read.val_main_v44 (F := Ideal) x src dst w1s w1n b1 (ix2 (⟨(i 0).val, hi0⟩ : Fin 100000) k) * w2n (ix2 k (⟨(i 1).val, hi1⟩ : Fin 40)) :=
    Finset.sum_congr rfl fun k _ => by rw [lidx46 i k, ridx46 i k]
  rw [s1, s2]
  rfl

end Cert.KernelIdeal.Bridge

end
-- ==== Proof.lean ====
/- A two-layer neighbour-aggregating network on 100000 nodes and 1600000 edges: each layer is
   `x · W_self + mean_neigh(x) · W_neigh + b`, the first followed by the rectifier. The kernel's program computes the
   neighbour mean on the host exactly as the reference does and each layer's dense stage in a pallas_call over 20 row
   tiles of 5000 nodes (inputs rounded to bf16 for the matrix unit, which on the extended reals is the identity), the
   second layer against weights and biases padded with zeros from 40 to 128 columns, of which the first 40 are kept.
   On the extended reals the two programs compute the same expression entry by entry: a matrix-unit product into a
   zero accumulator and the host's `dot_general` are the same sum over the 128 features, a row tile of a product is
   the rows of the whole product, and the padded columns are never read. No finiteness of the inputs is needed.
   The three frames are the generated ones (the reference's is its generated run with the result dropped);
   the ideal pass rewrote nothing, so `preserves` is trivial; `algebraic` puts the kernel program's run
   (KernelValue) beside the reference's generated run and joins them by Bridge.result_eq. -/
import proofs.«414108_j67070209295068_4_alg».proof.Defs
import proofs.«414108_j67070209295068_4_alg».proof.Proof.Gen.Kernel
import proofs.«414108_j67070209295068_4_alg».proof.Proof.Gen.Kernel.Frame
import proofs.«414108_j67070209295068_4_alg».proof.Proof.Gen.KernelIdeal
import proofs.«414108_j67070209295068_4_alg».proof.Proof.Gen.KernelIdeal.Frame
import proofs.«414108_j67070209295068_4_alg».proof.Proof.Gen.ReferenceIdeal
import proofs.«414108_j67070209295068_4_alg».proof.Proof.Gen.ReferenceIdeal.Run
import proofs.«414108_j67070209295068_4_alg».proof.Proof.Gen.ReferenceIdeal.Read
import proofs.«414108_j67070209295068_4_alg».proof.Proof.Gen.Pre_finite_inputs
import proofs.«414108_j67070209295068_4_alg».proof.Proof.KernelValue
import proofs.«414108_j67070209295068_4_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the same 100000 × 40 array: the kernel program's
    function of the arguments, which the reference's composed term equals. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v50_eq, e0, e1, e2, e3, e4, e5, e6, e7, e8]
  exact Cert.KernelIdeal.Bridge.result_eq _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
